-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S128x256 : Shape := ⟨2, ![128, 256]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩
abbrev S2000 : Shape := ⟨1, ![2000]⟩
abbrev S2000x1 : Shape := ⟨2, ![2000, 1]⟩

abbrev nBuf : Space → Nat
  | .hbm => 18
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S128x256, .f32⟩
  | .hbm, ⟨16, _⟩ => ⟨S128x256, .f32⟩
  | .hbm, ⟨17, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S256x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x256_S128x256_0_0 : S256x256.Slices ![0, 0] S128x256
  slices_S256x256_S128x256_128_0 : S256x256.Slices ![128, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x256 : Shape := ⟨2, ![1, 256]⟩
abbrev S1x128 : Shape := ⟨2, ![1, 128]⟩
abbrev S50000 : Shape := ⟨1, ![50000]⟩
abbrev S50000x1 : Shape := ⟨2, ![50000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S_, .f32⟩
  | .hbm, ⟨21, _⟩ => ⟨S50000x256, .f32⟩
  | .hbm, ⟨22, _⟩ => ⟨S50000x256, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One message-passing node update, as mathematics on the extended reals.

  A node has 128 features `x` and 128 aggregated edge features `a` (the sum of the features of the edges that point at
  it). The update runs the 256 numbers `[x, a]` through a two-layer perceptron, normalises the 128 results to mean zero
  and unit variance, scales and shifts them, and adds the node's own features back:

    hidden j  = max ((Σ_k x k · W1 k j + Σ_k a k · W1 (128 + k) j) + b1 j, 0)
    out q     = (Σ_j hidden j · W2 j q) + b2 q
    mean v    = (Σ_q v q) / 128
    node q    = x q + ((out q − mean out) · rsqrt (mean ((out − mean out)²) + ε) · g q + b q)

  Every node is updated by the same function of its own row of `x` and of the aggregate and of the shared parameters, so
  a tile of rows and the whole array are the same function restricted to different rows. The one law used besides
  that is that a sum over 256 consecutive indices is the sum over the first 128 plus the sum over the last 128, which
  holds in any commutative monoid, the extended reals included.
-/
import Idealize.ShloMosaic.PureOps.Ideal
import Idealize.ShloMosaic.PureOps.Ideal.Laws
import Idealize.ShloMosaic.Lib.ValueIdx
import Mathlib.Algebra.BigOperators.Fin

noncomputable section

namespace NodeMlp

open Idealize.ShloMosaic Idealize.ShloMosaic.ValueIdx

/-- Index `k` of the first half of 256. -/
def lo (k : Fin 128) : Fin 256 := ⟨k.val, by omega⟩
/-- Index `k` of the second half of 256. -/
def hi (k : Fin 128) : Fin 256 := ⟨128 + k.val, by omega⟩

/-- A sum over 256 indices is the sum over its first half plus the sum over its second half. -/
theorem sum_halves (f : Fin 256 → EReal) :
    ∑ k : Fin 256, f k = (∑ k : Fin 128, f (lo k)) + ∑ k : Fin 128, f (hi k) :=
  Fin.sum_univ_add (a := 128) (b := 128) f

/-- Hidden unit `j`: the node's features through the upper half of the first weight matrix, the aggregate through
    the lower half, the bias, clamped below at zero. -/
def hidden (xr ar : Fin 128 → EReal) (w1x w1a : Fin 128 → Fin 256 → EReal) (b1 : Fin 256 → EReal) (j : Fin 256) : EReal :=
  max (((∑ k : Fin 128, xr k * w1x k j) + ∑ k : Fin 128, ar k * w1a k j) + b1 j) (Ideal.ofBits .f32 0x00000000#32)

/-- Output unit `q` of the second layer. -/
def out2 (h : Fin 256 → EReal) (w2 : Fin 256 → Fin 128 → EReal) (b2 : Fin 128 → EReal) (q : Fin 128) : EReal :=
  (∑ j : Fin 256, h j * w2 j q) + b2 q

/-- The mean of 128 numbers: their sum divided by 128. -/
def mean (v : Fin 128 → EReal) : EReal := Ideal.div (∑ q : Fin 128, v q) (Ideal.ofBits .f32 0x43000000#32)

/-- A number less the mean of its row. -/
def centred (v : Fin 128 → EReal) (q : Fin 128) : EReal := v q - mean v

/-- The mean of the squared deviations. -/
def variance (v : Fin 128 → EReal) : EReal := mean fun q => centred v q * centred v q

/-- Layer normalisation with scale `g` and shift `b`. -/
def normed (v g b : Fin 128 → EReal) (q : Fin 128) : EReal :=
  centred v q * Ideal.rsqrt (variance v + Ideal.ofBits .f32 0x3727C5AC#32) * g q + b q

/-- The updated feature `q` of a node. -/
def node (xr ar : Fin 128 → EReal) (w1x w1a : Fin 128 → Fin 256 → EReal) (b1 : Fin 256 → EReal)
    (w2 : Fin 256 → Fin 128 → EReal) (b2 g b : Fin 128 → EReal) (q : Fin 128) : EReal :=
  xr q + normed (out2 (hidden xr ar w1x w1a b1) w2 b2) g b q

/-- The update of all 50000 nodes as one function of the whole arrays: the features `x`, the aggregate `agg`, and the
    parameters. -/
def update (x agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 g b : (⟨1, ![128]⟩ : Shape).Idx → EReal) : (⟨2, ![50000, 128]⟩ : Shape).Idx → EReal :=
  fun i => node (fun k => x (ix2 (i 0) k)) (fun k => agg (ix2 (i 0) k))
    (fun k j => W1 (ix2 (lo k) j)) (fun k j => W1 (ix2 (hi k) j)) (fun j => b1 (ix1 j))
    (fun j q => W2 (ix2 j q)) (fun q => b2 (ix1 q)) (fun q => g (ix1 q)) (fun q => b (ix1 q)) (i 1)

theorem update_apply (x agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 g b : (⟨1, ![128]⟩ : Shape).Idx → EReal) (r : Fin 50000) (q : Fin 128) :
    update x agg W1 b1 W2 b2 g b (ix2 r q) = node (fun k => x (ix2 r k)) (fun k => agg (ix2 r k))
      (fun k j => W1 (ix2 (lo k) j)) (fun k j => W1 (ix2 (hi k) j)) (fun j => b1 (ix1 j))
      (fun j q => W2 (ix2 j q)) (fun q => b2 (ix1 q)) (fun q => g (ix1 q)) (fun q => b (ix1 q)) q := rfl

end NodeMlp

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.KernelBlock.lean ====
/-
  What one tile of the kernel computes, entry by entry.

  A tile holds 2000 consecutive nodes. From the tile's rows of the features and of the aggregate, and from the whole
  parameter arrays, the body computes for row `p` and feature `q` exactly the node update of `Spec.lean` applied to
  row `p`: the two matrix products into a zero accumulator are plain sums over the contracted index (the change of
  float format in front of them is the identity on the extended reals), the bias rows are copied down the tile, a lane
  sum is the sum over the 128 features of the row, and a column of per-row values copied across the row is the value of
  that row.
-/
import proofs.«110929_j14731737825431_1_alg».proof.Proof.Gen.KernelIdeal.Value
import proofs.«110929_j14731737825431_1_alg».proof.Proof.Spec
import proofs.«110929_j14731737825431_1_alg».proof.Proof.LibPlainMatmul
import proofs.«110929_j14731737825431_1_alg».proof.Proof.LibLayoutCols
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Cert.KernelIdeal.Value
open Idealize.ShloMosaic Idealize.ShloMosaic.ValueIdx Idealize.ShloMosaic.LibPlainMatmul Idealize.ShloMosaic.LibLayoutCols

/-- The lane sum of a tile at row `p` is the sum of the row's 128 entries. -/
theorem rowSum_apply (V : FVec Ideal S2000x128 .f32) (p : Fin 2000) :
    multiReduction .add [1] S2000 V 0x00000000#32 reduces_S2000x128_S2000 (.inl rfl) rfl (ix1 p)
      = ∑ q : Fin 128, V (ix2 p q) :=
  (Ideal.multiReduction_add_single V 0x00000000#32 reduces_S2000x128_S2000 (.inl rfl) rfl (ix1 p)).trans
    (Finset.sum_congr rfl fun k _ => congrArg V (funext fun a => Fin.ext (by
      match a with
      | ⟨0, _⟩ => rfl
      | ⟨1, _⟩ => rfl)))

/-- A tile less its row means, at `(p, q)`: the entry less the mean of row `p`. -/
theorem centred_apply (V : FVec Ideal S2000x128 .f32) (p : Fin 2000) (q : Fin 128) :
    subf V (broadcastTo S2000x128 (divf (shapeCast S2000x1 (multiReduction .add [1] S2000 V 0x00000000#32
        reduces_S2000x128_S2000 (.inl rfl) rfl) shapeCasts_S2000_S2000x1)
        (broadcast S2000x1 (Scalar.ofBits .f32 0x43000000#32))) broadcasts_S2000x1_S2000x128) (ix2 p q)
      = NodeMlp.centred (fun k => V (ix2 p k)) q := by
  show V (ix2 p q) - broadcastTo S2000x128 _ broadcasts_S2000x1_S2000x128 (ix2 p q) = _
  rw [broadcastTo_a1_ab_apply]
  show V (ix2 p q) - Ideal.div (shapeCast S2000x1 _ shapeCasts_S2000_S2000x1 (ix2 p (0 : Fin 1)))
    (Ideal.ofBits .f32 0x43000000#32) = _
  rw [shapeCast_a_a1_apply, rowSum_apply]
  rfl

/-- The second layer on a tile, at `(p, q)`: row `p` of the hidden tile against column `q` of the weights, plus the
    bias. -/
theorem out2_apply (H : FVec Ideal S2000x256 .f32) (P5 : FVec Ideal S256x128 .f32) (P6 : FVec Ideal S128 .f32)
    (p : Fin 2000) (q : Fin 128) :
    addf (matmul dot_S2000x256_S256x128_S2000x128_1_0_0_1_n_n none (truncf .bf16 H bitsLt_bf16_f32)
        (truncf .bf16 P5 bitsLt_bf16_f32) (constant S2000x128 .f32 0x00000000#32))
        (broadcastTo S2000x128 (shapeCast S1x128 P6 shapeCasts_S128_S1x128) broadcasts_S1x128_S2000x128) (ix2 p q)
      = NodeMlp.out2 (fun j => H (ix2 p j)) (fun j q => P5 (ix2 j q)) (fun q => P6 (ix1 q)) q := by
  unfold NodeMlp.out2
  show matmul _ none _ _ _ (ix2 p q) + broadcastTo S2000x128 _ broadcasts_S1x128_S2000x128 (ix2 p q) = _
  rw [broadcastTo_1b_ab_apply, shapeCast_a_1a_apply]
  refine congrArg (· + P6 (ix1 q)) ?_
  exact matmul_plain_zero_apply (m := 2000) (k := 256) (n := 128) none (truncf .bf16 H bitsLt_bf16_f32)
    (truncf .bf16 P5 bitsLt_bf16_f32) p q

/-- The first layer on a tile, at `(p, j)`: the features' product with the upper weights plus the aggregate's with the
    lower weights, plus the bias, clamped below at zero. -/
theorem hidden_apply (P0 P1 : FVec Ideal S2000x128 .f32) (P2 P3 : FVec Ideal S128x256 .f32) (P4 : FVec Ideal S256 .f32)
    (p : Fin 2000) (j : Fin 256) :
    maximumf (addf (addf
        (matmul dot_S2000x128_S128x256_S2000x256_1_0_0_1_n_n none (truncf .bf16 P0 bitsLt_bf16_f32)
          (truncf .bf16 (shapeCast S128x256 P2 shapeCasts_S128x256_S128x256) bitsLt_bf16_f32)
          (constant S2000x256 .f32 0x00000000#32))
        (matmul dot_S2000x128_S128x256_S2000x256_1_0_0_1_n_n none
          (truncf .bf16 (shapeCast S2000x128 P1 shapeCasts_S2000x128_S2000x128) bitsLt_bf16_f32)
          (truncf .bf16 (shapeCast S128x256 P3 shapeCasts_S128x256_S128x256) bitsLt_bf16_f32)
          (constant S2000x256 .f32 0x00000000#32)))
        (broadcastTo S2000x256 (shapeCast S1x256 P4 shapeCasts_S256_S1x256) broadcasts_S1x256_S2000x256))
        (broadcast S2000x256 (Scalar.ofBits .f32 0x00000000#32)) (ix2 p j)
      = NodeMlp.hidden (fun k => P0 (ix2 p k)) (fun k => P1 (ix2 p k)) (fun k j => P2 (ix2 k j))
          (fun k j => P3 (ix2 k j)) (fun j => P4 (ix1 j)) j := by
  rw [shapeCast_self, shapeCast_self, shapeCast_self]
  unfold NodeMlp.hidden
  show max ((matmul _ none _ _ _ (ix2 p j) + matmul _ none _ _ _ (ix2 p j))
    + broadcastTo S2000x256 _ broadcasts_S1x256_S2000x256 (ix2 p j)) (Ideal.ofBits .f32 0x00000000#32) = _
  rw [broadcastTo_1b_ab_apply, shapeCast_a_1a_apply]
  refine congrArg (fun s => max (s + P4 (ix1 j)) (Ideal.ofBits .f32 0x00000000#32)) ?_
  exact congrArg₂ (· + ·)
    (matmul_plain_zero_apply (m := 2000) (k := 128) (n := 256) none (truncf .bf16 P0 bitsLt_bf16_f32)
      (truncf .bf16 P2 bitsLt_bf16_f32) p j)
    (matmul_plain_zero_apply (m := 2000) (k := 128) (n := 256) none (truncf .bf16 P1 bitsLt_bf16_f32)
      (truncf .bf16 P3 bitsLt_bf16_f32) p j)

/-- The tile of deviations the body keeps: at `(p, q)` the second layer's output of row `p` less that row's mean. -/
theorem pay2_apply (P0 P1 : FVec Ideal S2000x128 .f32) (P2 P3 : FVec Ideal S128x256 .f32) (P4 : FVec Ideal S256 .f32)
    (P5 : FVec Ideal S256x128 .f32) (P6 : FVec Ideal S128 .f32) (p : Fin 2000) (q : Fin 128) :
    k0_pay2 (F := Ideal) P0 P1 P2 P3 P4 P5 P6 (ix2 p q)
      = NodeMlp.centred (NodeMlp.out2 (NodeMlp.hidden (fun k => P0 (ix2 p k)) (fun k => P1 (ix2 p k))
          (fun k j => P2 (ix2 k j)) (fun k j => P3 (ix2 k j)) (fun j => P4 (ix1 j)))
          (fun j q => P5 (ix2 j q)) (fun q => P6 (ix1 q))) q := by
  unfold k0_pay2
  refine (centred_apply _ p q).trans ?_
  refine congrArg (fun v => NodeMlp.centred v q) (funext fun k => ?_)
  refine (out2_apply _ P5 P6 p k).trans ?_
  refine congrArg (fun h => NodeMlp.out2 h (fun j q => P5 (ix2 j q)) (fun q => P6 (ix1 q)) k) (funext fun j => ?_)
  exact hidden_apply P0 P1 P2 P3 P4 p j

/-- What the body leaves in the output tile at `(p, q)`: the update of the node in row `p`, feature `q`. -/
theorem block_apply (P0 P1 : FVec Ideal S2000x128 .f32) (P2 P3 : FVec Ideal S128x256 .f32) (P4 : FVec Ideal S256 .f32)
    (P5 : FVec Ideal S256x128 .f32) (P6 P7 P8 : FVec Ideal S128 .f32) (p : Fin 2000) (q : Fin 128) :
    E9 (F := Ideal) P0 P1 P2 P3 P4 P5 P6 P7 P8 (ix2 p q)
      = NodeMlp.node (fun k => P0 (ix2 p k)) (fun k => P1 (ix2 p k)) (fun k j => P2 (ix2 k j))
          (fun k j => P3 (ix2 k j)) (fun j => P4 (ix1 j)) (fun j q => P5 (ix2 j q)) (fun q => P6 (ix1 q))
          (fun q => P7 (ix1 q)) (fun q => P8 (ix1 q)) q := by
  have e0 : ix9_0 (ix2 p q) = ix2 p q := funext fun a => Fin.ext (by
    match a with
    | ⟨0, _⟩ => rfl
    | ⟨1, _⟩ => rfl)
  have e1 : ix9_1 (ix2 p q) = ix2 p q := funext fun a => Fin.ext (by
    match a with
    | ⟨0, _⟩ => rfl
    | ⟨1, _⟩ => rfl)
  have e2 : ix9_2 (ix2 p q) = ix1 p := funext fun a => Fin.ext (by
    match a with
    | ⟨0, _⟩ => rfl)
  have e3 : ix9_3 (ix2 p q) = ix1 q := funext fun a => Fin.ext (by
    match a with
    | ⟨0, _⟩ => rfl)
  have e4 : ix9_4 (ix2 p q) = ix1 q := funext fun a => Fin.ext (by
    match a with
    | ⟨0, _⟩ => rfl)
  show P0 (ix9_0 (ix2 p q)) + ((k0_pay2 (F := Ideal) P0 P1 P2 P3 P4 P5 P6 (ix9_1 (ix2 p q))
      * Ideal.rsqrt (Ideal.div (multiReduction .add [1] S2000 (mulf (k0_pay2 (F := Ideal) P0 P1 P2 P3 P4 P5 P6)
          (k0_pay2 (F := Ideal) P0 P1 P2 P3 P4 P5 P6)) 0x00000000#32 reduces_S2000x128_S2000 (.inl rfl) rfl (ix9_2 (ix2 p q)))
          (Ideal.ofBits .f32 0x43000000#32) + Ideal.ofBits .f32 0x3727C5AC#32))
      * P7 (ix9_3 (ix2 p q)) + P8 (ix9_4 (ix2 p q))) = _
  rw [e0, e1, e2, e3, e4, rowSum_apply]
  simp only [mulf_apply, pay2_apply]
  rfl

end Cert.KernelIdeal.BlockValue

end
-- ==== Proof.KernelHost.lean ====
/-
  What the host hands the kernel's region, and which block each window stages.

  Before the region the host forms the aggregate — starting from zeros, each edge's 128 features added into the row of
  the node that the edge's second endpoint names — and cuts the first weight matrix into its upper 128 rows and its
  lower 128 rows. These three arrays, the features and the remaining parameters are what the region's windows stage.
  The grid has 25 points: at point `t` the windows of the features, of the aggregate and of the result are at block row
  `t` (rows `2000·t … 2000·t + 1999`), and every parameter window is at block zero, the whole array.
-/
import proofs.«110929_j14731737825431_1_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## What the host hands the region -/

/-- The aggregate: starting from zeros, each edge's 128 features added into the row its second endpoint names. -/
def aggregate (x1 : (⟨S2x600000, .i32⟩ : BufTy).Contents (Elt Ideal)) (x2 : (⟨S600000x128, .f32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast S600000 (extractStridedSlice S1x600000 ![1, 0] x1 slices_S2x600000_S1x600000_1_0) shapeCasts_S1x600000_S600000))
    x2

/-- The second window's array is the aggregate of the edge arguments. -/
theorem V_agg (c : Dev nD) : (V m c main_v4 : S50000x128.Idx → EReal)
    = aggregate (m ((c : Thread nD τ).loc main_arg1)) (m ((c : Thread nD τ).loc main_arg2)) := by
  dsimp only [Gen.V, Gen.hostOps0]
  after_results
  rfl

/-- The third window's array is the upper 128 rows of the first weight matrix. -/
theorem V_upper (c : Dev nD) : (V m c main_v5 : S128x256.Idx → EReal)
    = extractStridedSlice S128x256 ![0, 0] (m ((c : Thread nD τ).loc main_arg3)) slices_S256x256_S128x256_0_0 := by
  dsimp only [Gen.V, Gen.hostOps0]
  after_results

/-- The fourth window's array is the lower 128 rows of the first weight matrix. -/
theorem V_lower (c : Dev nD) : (V m c main_v6 : S128x256.Idx → EReal)
    = extractStridedSlice S128x256 ![128, 0] (m ((c : Thread nD τ).loc main_arg3)) slices_S256x256_S128x256_128_0 := by
  dsimp only [Gen.V, Gen.hostOps0]
  after_results

/-! ## Which block each window stages at a point -/

/-- The printed index maps over the 25 points: the three row-tiled windows are at block row `t`, every parameter
    window at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

end Cert.KernelIdeal.ArrayValue

end
-- ==== Proof.KernelArray.lean ====
/-
  From the tiles to the whole result array.

  Point `t` of the grid stages rows `2000·t … 2000·t + 1999` of the features and of the aggregate and the whole of every
  parameter array, runs the body, and writes rows `2000·t … 2000·t + 1999` of the result. The body's tile at `(p, q)`
  is the node update of the tile's row `p`, which is row `2000·t + p` of the arrays; the upper and lower halves of the
  first weight matrix are its rows `k` and `128 + k`. So what point `t` writes back is block `t` of the whole-array
  update. Row `r` lies in block `r / 2000`, so the 25 blocks cover the array and the array after the run is the update.
-/
import proofs.«110929_j14731737825431_1_alg».proof.Proof.KernelHost

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Each staged block, read at an entry, as an entry of an argument array -/

/-- Row `p` of the features' block at point `t` is row `2000·t + p` of the features. -/
theorem iblk0_apply (c : Dev nD) (t : Fin cfg0.N) (p : Fin 2000) (k : Fin 128) (r : Fin 50000)
    (hr : r.val = 2000 * t.val + p.val) :
    (iblk m c 0 t : Vec Ideal S2000x128 .f32) (ix2 p k)
      = (m ((c : Thread nD τ).loc main_arg0) : S50000x128.Idx → EReal) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- Row `p` of the aggregate's block at point `t` is row `2000·t + p` of the aggregate. -/
theorem iblk1_apply (c : Dev nD) (t : Fin cfg0.N) (p : Fin 2000) (k : Fin 128) (r : Fin 50000)
    (hr : r.val = 2000 * t.val + p.val) :
    (iblk m c 1 t : Vec Ideal S2000x128 .f32) (ix2 p k)
      = aggregate (m ((c : Thread nD τ).loc main_arg1)) (m ((c : Thread nD τ).loc main_arg2)) (ix2 r k) := by
  obtain ⟨-, -, e0, e1, -⟩ := idx_facts t
  unfold iblk
  rw [View.read_apply]
  show V m c main_v4 _ = _
  rw [V_agg]
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- The upper weights' block is rows `0 … 127` of the first weight matrix. -/
theorem iblk2_apply (c : Dev nD) (t : Fin cfg0.N) (k : Fin 128) (j : Fin 256) :
    (iblk m c 2 t : Vec Ideal S128x256 .f32) (ix2 k j)
      = (m ((c : Thread nD τ).loc main_arg3) : S256x256.Idx → EReal) (ix2 (NodeMlp.lo k) j) := by
  obtain ⟨-, -, -, -, e0, e1, -⟩ := idx_facts t
  unfold iblk
  rw [View.read_apply]
  show V m c main_v5 _ = _
  rw [V_upper]
  refine (congrArg _ (?_ : _ = ix2 k j)).trans
    (slice2_axis0_apply 0 _ slices_S256x256_S128x256_0_0 k j (NodeMlp.lo k) (by show k.val = 0 + k.val; omega))
  funext a
  apply Fin.ext
  match a with
  | ⟨0, _⟩ => show win0_2.index t 0 * 128 + 1 * k.val = k.val; rw [e0]; omega
  | ⟨1, _⟩ => show win0_2.index t 1 * 256 + 1 * j.val = j.val; rw [e1]; omega

/-- The lower weights' block is rows `128 … 255` of the first weight matrix. -/
theorem iblk3_apply (c : Dev nD) (t : Fin cfg0.N) (k : Fin 128) (j : Fin 256) :
    (iblk m c 3 t : Vec Ideal S128x256 .f32) (ix2 k j)
      = (m ((c : Thread nD τ).loc main_arg3) : S256x256.Idx → EReal) (ix2 (NodeMlp.hi k) j) := by
  obtain ⟨-, -, -, -, -, -, e0, e1, -⟩ := idx_facts t
  unfold iblk
  rw [View.read_apply]
  show V m c main_v6 _ = _
  rw [V_lower]
  refine (congrArg _ (?_ : _ = ix2 k j)).trans
    (slice2_axis0_apply 128 _ slices_S256x256_S128x256_128_0 k j (NodeMlp.hi k) (by show 128 + k.val = 128 + k.val; rfl))
  funext a
  apply Fin.ext
  match a with
  | ⟨0, _⟩ => show win0_3.index t 0 * 128 + 1 * k.val = k.val; rw [e0]; omega
  | ⟨1, _⟩ => show win0_3.index t 1 * 256 + 1 * j.val = j.val; rw [e1]; omega

/-- The first bias's block is the first bias. -/
theorem iblk4_apply (c : Dev nD) (t : Fin cfg0.N) (j : Fin 256) :
    (iblk m c 4 t : Vec Ideal S256 .f32) (ix1 j) = (m ((c : Thread nD τ).loc main_arg4) : S256.Idx → EReal) (ix1 j) := by
  obtain ⟨-, -, -, -, -, -, -, -, e0, -⟩ := idx_facts t
  unfold iblk
  rw [View.read_apply]
  show V m c main_arg4 _ = _
  rw [V_main_arg4]
  congr 1
  funext a
  apply Fin.ext
  match a with
  | ⟨0, _⟩ => show win0_4.index t 0 * 256 + 1 * j.val = j.val; rw [e0]; omega

/-- The second weight matrix's block is the second weight matrix. -/
theorem iblk5_apply (c : Dev nD) (t : Fin cfg0.N) (j : Fin 256) (q : Fin 128) :
    (iblk m c 5 t : Vec Ideal S256x128 .f32) (ix2 j q)
      = (m ((c : Thread nD τ).loc main_arg5) : S256x128.Idx → EReal) (ix2 j q) := by
  obtain ⟨-, -, -, -, -, -, -, -, -, e0, e1, -⟩ := idx_facts t
  unfold iblk
  rw [View.read_apply]
  show V m c main_arg5 _ = _
  rw [V_main_arg5]
  congr 1
  funext a
  apply Fin.ext
  match a with
  | ⟨0, _⟩ => show win0_5.index t 0 * 256 + 1 * j.val = j.val; rw [e0]; omega
  | ⟨1, _⟩ => show win0_5.index t 1 * 128 + 1 * q.val = q.val; rw [e1]; omega

/-- The second bias's block is the second bias. -/
theorem iblk6_apply (c : Dev nD) (t : Fin cfg0.N) (q : Fin 128) :
    (iblk m c 6 t : Vec Ideal S128 .f32) (ix1 q) = (m ((c : Thread nD τ).loc main_arg6) : S128.Idx → EReal) (ix1 q) := by
  obtain ⟨-, -, -, -, -, -, -, -, -, -, -, e0, -⟩ := idx_facts t
  unfold iblk
  rw [View.read_apply]
  show V m c main_arg6 _ = _
  rw [V_main_arg6]
  congr 1
  funext a
  apply Fin.ext
  match a with
  | ⟨0, _⟩ => show win0_6.index t 0 * 128 + 1 * q.val = q.val; rw [e0]; omega

/-- The scale's block is the scale. -/
theorem iblk7_apply (c : Dev nD) (t : Fin cfg0.N) (q : Fin 128) :
    (iblk m c 7 t : Vec Ideal S128 .f32) (ix1 q) = (m ((c : Thread nD τ).loc main_arg7) : S128.Idx → EReal) (ix1 q) := by
  obtain ⟨-, -, -, -, -, -, -, -, -, -, -, -, e0, -⟩ := idx_facts t
  unfold iblk
  rw [View.read_apply]
  show V m c main_arg7 _ = _
  rw [V_main_arg7]
  congr 1
  funext a
  apply Fin.ext
  match a with
  | ⟨0, _⟩ => show win0_7.index t 0 * 128 + 1 * q.val = q.val; rw [e0]; omega

/-- The shift's block is the shift. -/
theorem iblk8_apply (c : Dev nD) (t : Fin cfg0.N) (q : Fin 128) :
    (iblk m c 8 t : Vec Ideal S128 .f32) (ix1 q) = (m ((c : Thread nD τ).loc main_arg8) : S128.Idx → EReal) (ix1 q) := by
  obtain ⟨-, -, -, -, -, -, -, -, -, -, -, -, -, e0, -⟩ := idx_facts t
  unfold iblk
  rw [View.read_apply]
  show V m c main_arg8 _ = _
  rw [V_main_arg8]
  congr 1
  funext a
  apply Fin.ext
  match a with
  | ⟨0, _⟩ => show win0_8.index t 0 * 128 + 1 * q.val = q.val; rw [e0]; omega

/-! ## What the body leaves in the output's buffer -/

/-- The output buffer after the body, at `(p, q)`, is the node update of whatever row and parameters the staged
    blocks hold. -/
theorem out_eq (x0 x1 : Vec Ideal S2000x128 .f32) (x2 x3 : Vec Ideal S128x256 .f32) (x4 : Vec Ideal S256 .f32)
    (x5 : Vec Ideal S256x128 .f32) (x6 x7 x8 : Vec Ideal S128 .f32) (p : Fin 2000) (q : Fin 128)
    (xr ar : Fin 128 → EReal) (w1x w1a : Fin 128 → Fin 256 → EReal) (b1 : Fin 256 → EReal)
    (w2 : Fin 256 → Fin 128 → EReal) (b2 g b : Fin 128 → EReal)
    (h0 : ∀ k, x0 (ix2 p k) = xr k) (h1 : ∀ k, x1 (ix2 p k) = ar k) (h2 : ∀ k j, x2 (ix2 k j) = w1x k j)
    (h3 : ∀ k j, x3 (ix2 k j) = w1a k j) (h4 : ∀ j, x4 (ix1 j) = b1 j) (h5 : ∀ j q, x5 (ix2 j q) = w2 j q)
    (h6 : ∀ q, x6 (ix1 q) = b2 q) (h7 : ∀ q, x7 (ix1 q) = g q) (h8 : ∀ q, x8 (ix1 q) = b q) :
    out0_9 (F := Ideal) x0 x1 x2 x3 x4 x5 x6 x7 x8 (ix2 p q) = NodeMlp.node xr ar w1x w1a b1 w2 b2 g b q := by
  unfold out0_9
  rw [canon9_eq]
  simp only [View.ld_unit_zero (S := S2000x128) hz2, View.ld_unit_zero (S := S128x256) hz2,
    View.ld_unit_zero (S := S256) hz1, View.ld_unit_zero (S := S256x128) hz2, View.ld_unit_zero (S := S128) hz1]
  rw [BlockValue.block_apply]
  simp only [h0, h1, h2, h3, h4, h5, h6, h7, h8]

/-! ## The result array -/

/-- The update of all nodes from the argument arrays as the program was launched with them. -/
abbrev result (c : Dev nD) : (⟨S50000x128, .f32⟩ : BufTy).Contents (Elt Ideal) :=
  NodeMlp.update (m ((c : Thread nD τ).loc main_arg0))
    (aggregate (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point `t` writes back is block `t` of the update. -/
theorem flushed_eq (c : Dev nD) (t : Fin cfg0.N) :
    (dats m 0 c).flushed 9 t = ((cfg0.win 9).blk t).view.read (Elt Ideal) (result m c) := by
  have hN : t.val < 25 := lt_of_lt_of_eq t.isLt N_0
  obtain ⟨-, -, -, -, -, -, -, -, -, -, -, -, -, -, e9a, e9b⟩ := idx_facts t
  rw [flushed9]
  funext y
  obtain ⟨p, q, rfl⟩ : ∃ (p : Fin 2000) (q : Fin 128), y = (ix2 p q : S2000x128.Idx) :=
    ⟨y 0, y 1, eq_ix2 (n0 := 2000) (n1 := 128) y⟩
  have hp := p.isLt
  show out0_9 (F := Ideal) (iblk m c 0 t) (iblk m c 1 t) (iblk m c 2 t) (iblk m c 3 t) (iblk m c 4 t) (iblk m c 5 t)
    (iblk m c 6 t) (iblk m c 7 t) (iblk m c 8 t) (ix2 p q) = result m c (((cfg0.win 9).blk t).view.emb (ix2 p q : S2000x128.Idx))
  have hemb : ((cfg0.win 9).blk t).view.emb (ix2 p q : S2000x128.Idx)
      = (ix2 (⟨2000 * t.val + p.val, by omega⟩ : Fin 50000) q : S50000x128.Idx) := by
    funext a
    apply Fin.ext
    match a with
    | ⟨0, _⟩ => show win0_9.index t 0 * 2000 + 1 * p.val = 2000 * t.val + p.val; rw [e9a]; omega
    | ⟨1, _⟩ => show win0_9.index t 1 * 128 + 1 * q.val = q.val; rw [e9b]; omega
  rw [hemb]
  unfold result
  rw [NodeMlp.update_apply]
  exact out_eq (iblk m c 0 t) (iblk m c 1 t) (iblk m c 2 t) (iblk m c 3 t) (iblk m c 4 t) (iblk m c 5 t)
    (iblk m c 6 t) (iblk m c 7 t) (iblk m c 8 t) p q _ _ _ _ _ _ _ _ _
    (fun k => iblk0_apply m c t p k _ rfl) (fun k => iblk1_apply m c t p k _ rfl)
    (fun k j => iblk2_apply m c t k j) (fun k j => iblk3_apply m c t k j) (fun j => iblk4_apply m c t j)
    (fun j q => iblk5_apply m c t j q) (fun q => iblk6_apply m c t q) (fun q => iblk7_apply m c t q)
    (fun q => iblk8_apply m c t q)

/-- An index of the result array is in point `t`'s block iff each coordinate is in the block's range on its axis. -/
theorem mem_blk (t : Fin cfg0.N) (i : S50000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v7).slice (win0_9.rect t)).set ↔ _
  rw [View.set_slice_whole, Rect.mem_set_unit]
  exact Iff.rfl

/-- Every index of the result array lies in some point's block: row `r` in the block of point `r / 2000`. -/
theorem cover (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have ht : (i 0).val / 2000 < cfg0.N := lt_of_lt_of_eq (by omega : (i 0).val / 2000 < 25) N_0.symm
  obtain ⟨-, -, -, -, -, -, -, -, -, -, -, -, -, -, e9a, e9b⟩ := idx_facts ⟨(i 0).val / 2000, ht⟩
  refine ⟨⟨(i 0).val / 2000, ht⟩, flush0_9 _, ?_⟩
  rw [mem_blk]
  intro a
  match a with
  | ⟨0, _⟩ =>
    show win0_9.index ⟨(i 0).val / 2000, ht⟩ (0 : Fin 2) * 2000 ≤ (i 0).val
      ∧ (i 0).val < win0_9.index ⟨(i 0).val / 2000, ht⟩ (0 : Fin 2) * 2000 + 2000
    rw [e9a]
    show (i 0).val / 2000 * 2000 ≤ (i 0).val ∧ (i 0).val < (i 0).val / 2000 * 2000 + 2000
    omega
  | ⟨1, _⟩ =>
    show win0_9.index ⟨(i 0).val / 2000, ht⟩ (1 : Fin 2) * 128 ≤ (i 1).val
      ∧ (i 1).val < win0_9.index ⟨(i 0).val / 2000, ht⟩ (1 : Fin 2) * 128 + 128
    rw [e9b]
    omega

/-- The result array after the run is the update of all nodes. -/
theorem final (c : Dev nD) : (dats m 0 c).arrAt 9 cfg0.N = result m c :=
  (dats m 0 c).arrAt_eq_of_cover 9 (result m c) (fun t _ => flushed_eq m c t) cover

/-- The kernel's run, read: the result array at the update of all nodes, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.Reference.lean ====
import proofs.«110929_j14731737825431_1_alg».proof.Proof.Gen.ReferenceIdeal.Read
import proofs.«110929_j14731737825431_1_alg».proof.Proof.Spec

/-
  The reference program's result is the node update of the specification.

  The reference concatenates each node's features with its aggregate, multiplies by the first weight matrix, adds the
  bias and clamps at zero, multiplies by the second weight matrix and adds its bias, then normalises each row (mean,
  deviations, mean of the squared deviations, reciprocal square root), scales, shifts, and adds the node's features.
  Each stage is read at one row `r` and one column: the concatenation's column `k < 128` is the node's feature `k` and
  its column `128 + k` the aggregate's; the sum over the 256 joined columns splits into the two halves; every sum that
  starts from the zero word starts from zero.
-/

noncomputable section

namespace Cert.ReferenceIdeal.RefValue

open Cert.ReferenceIdeal Cert.ReferenceIdeal.Gen Cert.ReferenceIdeal.Read Idealize.ShloMosaic Idealize.ShloMosaic.ValueIdx

section Stages

variable (x0 : (⟨S50000x128, .f32⟩ : BufTy).Contents (Elt Ideal)) (x1 : (⟨S2x600000, .i32⟩ : BufTy).Contents (Elt Ideal))
  (x2 : (⟨S600000x128, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 x7 x8 : (⟨S128, .f32⟩ : BufTy).Contents (Elt Ideal))

/-- Column `k` of the first half of the joined row `r` is the node's feature `k`. -/
theorem joined_lo (r : Fin 50000) (k : Fin 128) :
    val_main_v5 (F := Ideal) x0 x1 x2 (ix2 r (NodeMlp.lo k)) = x0 (ix2 r k) := by
  unfold val_main_v5
  exact concatenate_pair_apply_left (t := S50000x256) (s₁ := S50000x128) (s₂ := S50000x128) (1 : Fin 2) _ _ concatenates_S50000x128_S50000x128_S50000x256_d1
    (ix2 r (NodeMlp.lo k)) rfl (ix2 r k) (by
      intro b
      match b with
      | ⟨0, _⟩ => rfl
      | ⟨1, _⟩ => rfl)

/-- Column `128 + k` of the joined row `r` is the aggregate's feature `k`. -/
theorem joined_hi (r : Fin 50000) (k : Fin 128) :
    val_main_v5 (F := Ideal) x0 x1 x2 (ix2 r (NodeMlp.hi k)) = val_main_v4 (F := Ideal) x1 x2 (ix2 r k) := by
  unfold val_main_v5
  exact concatenate_pair_apply_right (t := S50000x256) (s₁ := S50000x128) (s₂ := S50000x128) (1 : Fin 2) _ _ concatenates_S50000x128_S50000x128_S50000x256_d1
    (ix2 r (NodeMlp.hi k)) rfl rfl (ix2 r k) (by
      intro b hb
      match b with
      | ⟨0, _⟩ => rfl
      | ⟨1, _⟩ => exact absurd rfl hb) (by
      show k.val + 128 = 128 + k.val; omega)

/-- The hidden layer of row `r`, as the specification writes it. -/
def hiddenRow (r : Fin 50000) : Fin 256 → EReal :=
  NodeMlp.hidden (fun k => x0 (ix2 r k)) (fun k => val_main_v4 (F := Ideal) x1 x2 (ix2 r k))
    (fun k j => x3 (ix2 (NodeMlp.lo k) j)) (fun k j => x3 (ix2 (NodeMlp.hi k) j)) (fun j => x4 (ix1 j))

/-- The first product at row `r`, column `j`: the sum over the joined columns, split into its two halves. -/
theorem first_product (r : Fin 50000) (j : Fin 256) :
    val_main_v6 (F := Ideal) x0 x1 x2 x3 (ix2 r j)
      = (∑ k : Fin 128, x0 (ix2 r k) * x3 (ix2 (NodeMlp.lo k) j))
        + ∑ k : Fin 128, val_main_v4 (F := Ideal) x1 x2 (ix2 r k) * x3 (ix2 (NodeMlp.hi k) j) := by
  rw [val_main_v6_apply, NodeMlp.sum_halves]
  refine congrArg₂ (· + ·) (Finset.sum_congr rfl fun k _ => ?_) (Finset.sum_congr rfl fun k _ => ?_)
  · rw [show lidx_main_v6 (ix2 r j) (NodeMlp.lo k) = ix2 r (NodeMlp.lo k) from
        funext fun a => Fin.ext (by match a with | ⟨0, _⟩ => rfl | ⟨1, _⟩ => rfl),
      show ridx_main_v6 (ix2 r j) (NodeMlp.lo k) = ix2 (NodeMlp.lo k) j from
        funext fun a => Fin.ext (by match a with | ⟨0, _⟩ => rfl | ⟨1, _⟩ => rfl), joined_lo]
  · rw [show lidx_main_v6 (ix2 r j) (NodeMlp.hi k) = ix2 r (NodeMlp.hi k) from
        funext fun a => Fin.ext (by match a with | ⟨0, _⟩ => rfl | ⟨1, _⟩ => rfl),
      show ridx_main_v6 (ix2 r j) (NodeMlp.hi k) = ix2 (NodeMlp.hi k) j from
        funext fun a => Fin.ext (by match a with | ⟨0, _⟩ => rfl | ⟨1, _⟩ => rfl), joined_hi]

/-- The clamped first layer at row `r`, column `j` is the specification's hidden unit `j`. -/
theorem hidden_at (r : Fin 50000) (j : Fin 256) :
    val_main_v10 (F := Ideal) x0 x1 x2 x3 x4 (ix2 r j) = hiddenRow x0 x1 x2 x3 x4 r j := by
  rw [val_main_v10_apply, val_main_v9_apply, first_product, val_main_v8_apply, val_main_v7_apply,
    val_main_call0_v0_apply, val_main_call0_cst_apply,
    show idx_main_v7 (idx_main_v8 (ix2 r j)) = ix1 j from
      funext fun a => Fin.ext (by match a with | ⟨0, _⟩ => rfl)]
  rfl

/-- Row `r` of the second layer's output, as the specification writes it. -/
def outRow (r : Fin 50000) : Fin 128 → EReal :=
  NodeMlp.out2 (hiddenRow x0 x1 x2 x3 x4 r) (fun j q => x5 (ix2 j q)) (fun q => x6 (ix1 q))

/-- The second layer at row `r`, column `q`. -/
theorem out_at (r : Fin 50000) (q : Fin 128) :
    val_main_v14 (F := Ideal) x0 x1 x2 x3 x4 x5 x6 (ix2 r q) = outRow x0 x1 x2 x3 x4 x5 x6 r q := by
  rw [val_main_v14_apply, val_main_v11_apply, val_main_v13_apply, val_main_v12_apply,
    show idx_main_v12 (idx_main_v13 (ix2 r q)) = ix1 q from
      funext fun a => Fin.ext (by match a with | ⟨0, _⟩ => rfl)]
  refine congrArg (· + x6 (ix1 q)) (Finset.sum_congr rfl fun j _ => ?_)
  rw [show lidx_main_v11 (ix2 r q) j = ix2 r j from
        funext fun a => Fin.ext (by match a with | ⟨0, _⟩ => rfl | ⟨1, _⟩ => rfl),
    show ridx_main_v11 (ix2 r q) j = ix2 j q from
        funext fun a => Fin.ext (by match a with | ⟨0, _⟩ => rfl | ⟨1, _⟩ => rfl), hidden_at]

/-- The row mean at row `r`: the sum starts from the zero word, which is zero. -/
theorem mean_at (r : Fin 50000) :
    val_main_v18 (F := Ideal) x0 x1 x2 x3 x4 x5 x6 (ix2 r (0 : Fin 1)) = NodeMlp.mean (outRow x0 x1 x2 x3 x4 x5 x6 r) := by
  rw [val_main_v18_apply, val_main_v16_apply, val_main_v15_apply, val_main_cst_0_apply, val_main_v17_apply,
    val_main_cst_1_apply]
  simp only [Ideal.hostDivf_def, Ideal.ofBits_def, Ideal.ofBits_zero_f32, zero_add]
  refine congrArg (Ideal.div · _) (Finset.sum_congr rfl fun k _ => ?_)
  rw [show idx_main_v15 (idx_main_v16 (ix2 r (0 : Fin 1))) k = ix2 r k from
        funext fun a => Fin.ext (by match a with | ⟨0, _⟩ => rfl | ⟨1, _⟩ => rfl), out_at]

/-- The deviation from the row mean at row `r`, column `q` (the copy that is squared). -/
theorem centred_at (r : Fin 50000) (q : Fin 128) :
    val_main_v20 (F := Ideal) x0 x1 x2 x3 x4 x5 x6 (ix2 r q) = NodeMlp.centred (outRow x0 x1 x2 x3 x4 x5 x6 r) q := by
  rw [val_main_v20_apply, out_at, val_main_v19_apply,
    show idx_main_v19 (ix2 r q) = ix2 r (0 : Fin 1) from
      funext fun a => Fin.ext (by match a with | ⟨0, _⟩ => rfl | ⟨1, _⟩ => rfl), mean_at]
  rfl

/-- The deviation from the row mean at row `r`, column `q` (the copy that is scaled). -/
theorem centred_at' (r : Fin 50000) (q : Fin 128) :
    val_main_v27 (F := Ideal) x0 x1 x2 x3 x4 x5 x6 (ix2 r q) = NodeMlp.centred (outRow x0 x1 x2 x3 x4 x5 x6 r) q := by
  rw [val_main_v27_apply, out_at, val_main_v26_apply,
    show idx_main_v26 (ix2 r q) = ix2 r (0 : Fin 1) from
      funext fun a => Fin.ext (by match a with | ⟨0, _⟩ => rfl | ⟨1, _⟩ => rfl), mean_at]
  rfl

/-- The mean of the squared deviations at row `r`. -/
theorem variance_at (r : Fin 50000) :
    val_main_v25 (F := Ideal) x0 x1 x2 x3 x4 x5 x6 (ix2 r (0 : Fin 1)) = NodeMlp.variance (outRow x0 x1 x2 x3 x4 x5 x6 r) := by
  rw [val_main_v25_apply, val_main_v23_apply, val_main_v22_apply, val_main_cst_2_apply, val_main_v24_apply,
    val_main_cst_3_apply]
  simp only [Ideal.hostDivf_def, Ideal.ofBits_def, Ideal.ofBits_zero_f32, zero_add]
  refine congrArg (Ideal.div · _) (Finset.sum_congr rfl fun k _ => ?_)
  rw [val_main_v21_apply,
    show idx_main_v22 (idx_main_v23 (ix2 r (0 : Fin 1))) k = ix2 r k from
        funext fun a => Fin.ext (by match a with | ⟨0, _⟩ => rfl | ⟨1, _⟩ => rfl), centred_at]
  rfl

/-- The reference's result at row `r`, column `q` is the specification's updated feature. -/
theorem result_at (r : Fin 50000) (q : Fin 128) :
    val_main_v39 (F := Ideal) x0 x1 x2 x3 x4 x5 x6 x7 x8 (ix2 r q)
      = NodeMlp.node (fun k => x0 (ix2 r k)) (fun k => val_main_v4 (F := Ideal) x1 x2 (ix2 r k))
          (fun k j => x3 (ix2 (NodeMlp.lo k) j)) (fun k j => x3 (ix2 (NodeMlp.hi k) j)) (fun j => x4 (ix1 j))
          (fun j q => x5 (ix2 j q)) (fun q => x6 (ix1 q)) (fun q => x7 (ix1 q)) (fun q => x8 (ix1 q)) q := by
  rw [val_main_v39_apply, val_main_v38_apply, val_main_v35_apply, val_main_v32_apply, centred_at',
    val_main_v31_apply, val_main_v30_apply, val_main_v29_apply,
    show idx_main_v31 (ix2 r q) = ix2 r (0 : Fin 1) from
      funext fun a => Fin.ext (by match a with | ⟨0, _⟩ => rfl | ⟨1, _⟩ => rfl), variance_at,
    val_main_v28_apply, val_main_cst_4_apply, val_main_v34_apply, val_main_v33_apply, val_main_v37_apply,
    val_main_v36_apply,
    show idx_main_v33 (idx_main_v34 (ix2 r q)) = ix1 q from
      funext fun a => Fin.ext (by match a with | ⟨0, _⟩ => rfl),
    show idx_main_v36 (idx_main_v37 (ix2 r q)) = ix1 q from
      funext fun a => Fin.ext (by match a with | ⟨0, _⟩ => rfl)]
  rfl

end Stages

theorem reference_is_update
    (x0 : (⟨S50000x128, .f32⟩ : BufTy).Contents (Elt Ideal)) (x1 : (⟨S2x600000, .i32⟩ : BufTy).Contents (Elt Ideal))
    (x2 : (⟨S600000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 x7 x8 : (⟨S128, .f32⟩ : BufTy).Contents (Elt Ideal)) :
    val_main_v39 (F := Ideal) x0 x1 x2 x3 x4 x5 x6 x7 x8
      = NodeMlp.update x0 (val_main_v4 (F := Ideal) x1 x2) x3 x4 x5 x6 x7 x8 := by
  funext i
  obtain ⟨r, q, rfl⟩ : ∃ (r : Fin 50000) (q : Fin 128), i = ix2 r q := ⟨i 0, i 1, eq_ix2 i⟩
  rw [NodeMlp.update_apply]
  exact result_at x0 x1 x2 x3 x4 x5 x6 x7 x8 r q

end Cert.ReferenceIdeal.RefValue

end
-- ==== Proof.lean ====
/-
  A message-passing layer of a graph network: every node's features are updated from the node's own 128 features and
  from the sum of the 128 features of the edges that point at it. The kernel forms that sum on the host, cuts the
  first weight matrix of a two-layer perceptron into the rows that meet the node's features and the rows that meet the
  aggregate, and then runs one tiled region over 25 tiles of 2000 nodes: two matrix products added, the bias, a clamp
  at zero, a third matrix product and its bias, a layer normalisation over the 128 outputs, and the node's features
  added back. The reference joins features and aggregate side by side into 256 columns and runs the same perceptron
  and normalisation on whole arrays.

  On the extended reals the two are one function. Both form the aggregate by the same host operations of the same
  arguments. A row of the joined array times the first weight matrix is a sum over 256 columns, which is the sum over
  the first 128 (the node's features against the upper rows) plus the sum over the last 128 (the aggregate against the
  lower rows): a regrouping of a finite sum, which holds for any extended reals, so finiteness of the inputs is never
  used. Everything after that is the same operation on both sides, row by row: sums over the 128 outputs, division by
  128, the reciprocal square root, and the pointwise arithmetic. A tile's row is a row of the whole array, and the 25
  tiles cover it.

  `Spec.lean` states the per-node update and the whole-array update; `KernelBlock.lean` reads a tile of the kernel's
  body entry by entry; `KernelHost.lean` and `KernelArray.lean` read the arrays the region is launched on and put the
  tiles together; `Reference.lean` reads the reference's operations one at a time. The frames of the two kernel
  programs are the generated ones; the reference's frame is its generated run with the result dropped.
-/
import proofs.«110929_j14731737825431_1_alg».proof.Defs
import proofs.«110929_j14731737825431_1_alg».proof.Proof.Gen.Kernel
import proofs.«110929_j14731737825431_1_alg».proof.Proof.Gen.Kernel.Frame
import proofs.«110929_j14731737825431_1_alg».proof.Proof.Gen.KernelIdeal
import proofs.«110929_j14731737825431_1_alg».proof.Proof.Gen.KernelIdeal.Frame
import proofs.«110929_j14731737825431_1_alg».proof.Proof.Gen.KernelIdeal.Value
import proofs.«110929_j14731737825431_1_alg».proof.Proof.Gen.ReferenceIdeal
import proofs.«110929_j14731737825431_1_alg».proof.Proof.Gen.ReferenceIdeal.Run
import proofs.«110929_j14731737825431_1_alg».proof.Proof.Gen.ReferenceIdeal.Read
import proofs.«110929_j14731737825431_1_alg».proof.Proof.Gen.Pre_finite_inputs
import proofs.«110929_j14731737825431_1_alg».proof.Proof.KernelArray
import proofs.«110929_j14731737825431_1_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The aggregate the kernel's host operations form is the one the reference's form: the same operations. -/
theorem aggregate_eq (x1 : (⟨Cert.ReferenceIdeal.S2x600000, .i32⟩ : BufTy).Contents (Elt Ideal))
    (x2 : (⟨Cert.ReferenceIdeal.S600000x128, .f32⟩ : BufTy).Contents (Elt Ideal)) :
    Cert.ReferenceIdeal.Read.val_main_v4 (F := Ideal) x1 x2 = Cert.KernelIdeal.ArrayValue.aggregate x1 x2 := rfl

/-- Both programs end with the update of all nodes in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, Cert.ReferenceIdeal.RefValue.reference_is_update, aggregate_eq,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
